-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4x8x2048x64 .f32) (main_arg1 : FVec F S4x8x2048x64 .f32) (main_arg2 : FVec F S4x8x2048x64 .f32) (main_arg3 : FVec F S_ .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4x8x2048x64 : Shape := ⟨4, ![4, 8, 2048, 64]⟩
abbrev S_ : Shape := ⟨0, ![]⟩
abbrev S32x2048x64 : Shape := ⟨3, ![32, 2048, 64]⟩
abbrev S4x8x64x2048 : Shape := ⟨4, ![4, 8, 64, 2048]⟩
abbrev S32x64x2048 : Shape := ⟨3, ![32, 64, 2048]⟩
abbrev S1x512x64 : Shape := ⟨3, ![1, 512, 64]⟩
abbrev S1x64x2048 : Shape := ⟨3, ![1, 64, 2048]⟩
abbrev S1x2048x64 : Shape := ⟨3, ![1, 2048, 64]⟩
abbrev S512x64 : Shape := ⟨2, ![512, 64]⟩
abbrev S64x2048 : Shape := ⟨2, ![64, 2048]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S_, .f32⟩
  | .hbm, ⟨4, _⟩ => ⟨S4x8x2048x64, .f32⟩
  | .hbm, ⟨5, _⟩ => ⟨S4x8x2048x64, .f32⟩
  | .hbm, ⟨6, _⟩ => ⟨S32x2048x64, .f32⟩
  | .hbm, ⟨7, _⟩ => ⟨S32x2048x64, .bf16⟩
  | .hbm, ⟨8, _⟩ => ⟨S4x8x64x2048, .f32⟩
  | .hbm, ⟨9, _⟩ => ⟨S32x64x2048, .f32⟩
  | .hbm, ⟨10, _⟩ => ⟨S32x64x2048, .bf16⟩
  | .hbm, ⟨11, _⟩ => ⟨S32x2048x64, .f32⟩
  | .hbm, ⟨12, _⟩ => ⟨S32x2048x64, .bf16⟩
  | .hbm, ⟨13, _⟩ => ⟨S32x2048x64, .f32⟩
  | .hbm, ⟨14, _⟩ => ⟨S4x8x2048x64, .f32⟩
  | .local _ .vmem, ⟨0, _⟩ => ⟨S1x512x64, .bf16⟩
  | .local _ .vmem, ⟨1, _⟩ => ⟨S1x512x64, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x8x2048x64 : S_.BroadcastsInDim S4x8x2048x64 (![] : Fin 0 → Fin S4x8x2048x64.rank)
  shapeCasts_S4x8x2048x64_S32x2048x64 : S4x8x2048x64.ShapeCasts S32x2048x64
  bitsLt_bf16_f32 : FTy.bits .bf16 < FTy.bits .f32
  transposes_S4x8x2048x64_S4x8x64x2048_0_1_3_2 : S4x8x2048x64.Transposes [0, 1, 3, 2] S4x8x64x2048
  shapeCasts_S4x8x64x2048_S32x64x2048 : S4x8x64x2048.ShapeCasts S32x64x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S32x2048x64_S4x8x2048x64 : S32x2048x64.ShapeCasts S4x8x2048x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .bf16 = 32 ∨ (Rect.block (s := S32x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S32x64x2048.size a
  hwx0_1 : ∀ i : grid0.Coords, EltTy.bits .bf16 = 32 ∨ (Rect.block (s := S32x64x2048) S1x64x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v3) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S_, .f32⟩
  | .hbm, ⟨4, _⟩ => ⟨S4x8x2048x2048, .f32⟩
  | .hbm, ⟨5, _⟩ => ⟨S4x8x2048x2048, .f32⟩
  | .hbm, ⟨6, _⟩ => ⟨S4x8x2048x2048, .f32⟩
  | .hbm, ⟨7, _⟩ => ⟨S_, .f32⟩
  | .hbm, ⟨8, _⟩ => ⟨S4x8x2048x2048, .f32⟩
  | .hbm, ⟨9, _⟩ => ⟨S4x8x2048x2048, .f32⟩
  | .hbm, ⟨10, _⟩ => ⟨S_, .f32⟩
  | .hbm, ⟨11, _⟩ => ⟨S4x8x2048, .f32⟩
  | .hbm, ⟨12, _⟩ => ⟨S_, .f32⟩
  | .hbm, ⟨13, _⟩ => ⟨S4x8x2048, .f32⟩
  | .hbm, ⟨14, _⟩ => ⟨S4x8x2048, .f32⟩
  | .hbm, ⟨15, _⟩ => ⟨S4x8x2048x1, .f32⟩
  | .hbm, ⟨16, _⟩ => ⟨S4x8x2048x2048, .f32⟩
  | .hbm, ⟨17, _⟩ => ⟨S4x8x2048x2048, .f32⟩
  | .hbm, ⟨18, _⟩ => ⟨S4x8x2048x2048, .f32⟩
  | .hbm, ⟨19, _⟩ => ⟨S_, .f32⟩
  | .hbm, ⟨20, _⟩ => ⟨S4x8x2048, .f32⟩
  | .hbm, ⟨21, _⟩ => ⟨S4x8x2048x1, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S_, .f32⟩
  | .hbm, ⟨28, _⟩ => ⟨S4x8x2048, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.RowLaw.lean ====
/-
  One query row of the doubly-normalised attention, on the extended reals.

  For a row of logits `ℓ : Fin 2048 → EReal` both programs compute weights
      p = softmax (2·ℓ),   a = softmax (ℓ · p),
  and differ only in how a softmax is spelt: the kernel multiplies each exponential by the reciprocal
  `1 / Σ` of the row sum and scales by the factor `2`; the reference divides each exponential by the row
  sum, divides by `1/2`, and takes its row maximum once more against `-∞`. On a row of REAL numbers the row
  maximum is real, every exponential is a positive real and so is the row sum, and then the two spellings
  agree (`wK_eq_wR`). The logits themselves are a sum of 64 products scaled by `s`: the kernel scales each
  left factor, the reference the finished sum; on reals both are the real number `Σ q·s·k` (`logitK_coe`,
  `logitR_coe`).
-/
import Idealize.ShloMosaic.PureOps.Ideal
import Idealize.ShloMosaic.Lib.ValueIdx

noncomputable section

open scoped BigOperators

namespace Cert.RowLaw

open Idealize.ShloMosaic Idealize.ShloMosaic.ValueIdx

/-- The maximum of a row, folded from the pattern of `-∞`. -/
def rowMax (x : Fin 2048 → EReal) : EReal :=
  (Finset.univ : Finset (Fin 2048)).fold max (Ideal.ofBits .f32 0xFF800000#32) x

/-- The kernel's softmax of a row: each exponential TIMES the reciprocal of the row sum. -/
def smK (x : Fin 2048 → EReal) (j : Fin 2048) : EReal :=
  Ideal.exp (x j - rowMax x) * Ideal.div (Ideal.ofBits .f32 0x3F800000#32) (∑ k : Fin 2048, Ideal.exp (x k - rowMax x))

/-- The reference's softmax of a row: the maximum taken once more against `-∞`, the sum started from the
    zero pattern, each exponential DIVIDED by the row sum. -/
def smR (x : Fin 2048 → EReal) (j : Fin 2048) : EReal :=
  Ideal.div (Ideal.exp (x j - max (Ideal.ofBits .f32 0xFF800000#32) (rowMax x)))
    (Ideal.ofBits .f32 0x00000000#32 + ∑ k : Fin 2048, Ideal.exp (x k - max (Ideal.ofBits .f32 0xFF800000#32) (rowMax x)))

/-- The kernel's attention weights of a row of logits. -/
def wK (ℓ : Fin 2048 → EReal) : Fin 2048 → EReal :=
  smK (fun j => ℓ j * smK (fun k => ℓ k * Ideal.ofBits .f32 0x40000000#32) j)

/-- The reference's attention weights of a row of logits. -/
def wR (ℓ : Fin 2048 → EReal) : Fin 2048 → EReal :=
  smR (fun j => ℓ j * smR (fun k => Ideal.div (ℓ k) (Ideal.ofBits .f32 0x3F000000#32)) j)

/-! ## The five constants -/

/-- The pattern of `-∞`. -/
theorem ofBits_ninf : Ideal.ofBits .f32 0xFF800000#32 = (⊥ : EReal) := by
  simp [Ideal.ofBits, Ideal.ieee]

/-- The pattern of `+0.0`. -/
theorem ofBits_zero : Ideal.ofBits .f32 0x00000000#32 = (0 : EReal) := by
  simp [Ideal.ofBits, Ideal.ieee]

/-- The pattern of `1.0`. -/
theorem ofBits_one : Ideal.ofBits .f32 0x3F800000#32 = ((1 : ℝ) : EReal) := by
  simp [Ideal.ofBits, Ideal.ieee, -EReal.coe_mul]; norm_num

/-- The pattern of `2.0`. -/
theorem ofBits_two : Ideal.ofBits .f32 0x40000000#32 = ((2 : ℝ) : EReal) := by
  simp [Ideal.ofBits, Ideal.ieee, -EReal.coe_mul]; norm_num

/-- The pattern of `0.5`. -/
theorem ofBits_half : Ideal.ofBits .f32 0x3F000000#32 = ((1 / 2 : ℝ) : EReal) := by
  simp [Ideal.ofBits, Ideal.ieee, -EReal.coe_mul]; norm_num

/-! ## Rows of real numbers -/

/-- A finite sum of real numbers, read in the extended reals, is the real sum. -/
theorem coe_sum {ι : Type} (s : Finset ι) (f : ι → ℝ) :
    (∑ i ∈ s, ((f i : ℝ) : EReal)) = (((∑ i ∈ s, f i : ℝ)) : EReal) := by
  classical
  induction s using Finset.induction_on with
  | empty => simp
  | insert a s ha ih => rw [Finset.sum_insert ha, Finset.sum_insert ha, ih, EReal.coe_add]

/-- Folding `max` from `-∞` over a nonempty set of real numbers gives their real maximum. -/
theorem fold_max_coe (x : Fin 2048 → ℝ) (s : Finset (Fin 2048)) (hs : s.Nonempty) :
    s.fold max (⊥ : EReal) (fun j => ((x j : ℝ) : EReal)) = ((s.sup' hs x : ℝ) : EReal) := by
  induction hs using Finset.Nonempty.cons_induction with
  | singleton a => simp
  | cons a s ha hs ih =>
    rw [Finset.fold_cons, ih, Finset.sup'_cons hs]
    exact (EReal.coe_strictMono.monotone.map_max).symm

/-- The real maximum of a real row. -/
def rmax (x : Fin 2048 → ℝ) : ℝ := (Finset.univ : Finset (Fin 2048)).sup' Finset.univ_nonempty x

/-- The real softmax of a real row. -/
def softmaxℝ (x : Fin 2048 → ℝ) (j : Fin 2048) : ℝ :=
  Real.exp (x j - rmax x) / ∑ k : Fin 2048, Real.exp (x k - rmax x)

/-- The row maximum of a real row is its real maximum. -/
theorem rowMax_coe (x : Fin 2048 → ℝ) : rowMax (fun j => ((x j : ℝ) : EReal)) = ((rmax x : ℝ) : EReal) := by
  unfold rowMax rmax
  rw [ofBits_ninf]
  exact fold_max_coe x _ _

/-- The row sum of exponentials of a real row is a positive real, so not zero. -/
theorem sumExp_ne_zero (x : Fin 2048 → ℝ) : (∑ k : Fin 2048, Real.exp (x k - rmax x)) ≠ 0 :=
  (Finset.sum_pos (fun k _ => Real.exp_pos _) Finset.univ_nonempty).ne'

/-- The kernel's softmax of a real row is the real softmax. -/
theorem smK_coe (x : Fin 2048 → ℝ) (j : Fin 2048) :
    smK (fun k => ((x k : ℝ) : EReal)) j = ((softmaxℝ x j : ℝ) : EReal) := by
  unfold smK softmaxℝ
  rw [rowMax_coe, ofBits_one]
  simp only [← EReal.coe_sub, Ideal.exp_coe, coe_sum]
  rw [Ideal.div_coe (sumExp_ne_zero x), ← EReal.coe_mul, ← EReal.coe_mul, one_mul, mul_one_div]

/-- The reference's softmax of a real row is the real softmax. -/
theorem smR_coe (x : Fin 2048 → ℝ) (j : Fin 2048) :
    smR (fun k => ((x k : ℝ) : EReal)) j = ((softmaxℝ x j : ℝ) : EReal) := by
  unfold smR softmaxℝ
  rw [rowMax_coe, ofBits_ninf, ofBits_zero, max_eq_right bot_le, zero_add]
  simp only [← EReal.coe_sub, Ideal.exp_coe, coe_sum]
  rw [Ideal.div_coe (sumExp_ne_zero x), ← EReal.coe_mul, mul_one_div]

/-- On a row of real logits the two spellings of the weights agree. -/
theorem wK_eq_wR (ℓ : Fin 2048 → ℝ) : wK (fun j => ((ℓ j : ℝ) : EReal)) = wR (fun j => ((ℓ j : ℝ) : EReal)) := by
  funext j
  have h1 : (fun k : Fin 2048 => ((ℓ k : ℝ) : EReal) * Ideal.ofBits .f32 0x40000000#32)
      = fun k => (((ℓ k * 2 : ℝ)) : EReal) := by
    funext k
    rw [ofBits_two, ← EReal.coe_mul]
  have h2 : (fun k : Fin 2048 => Ideal.div ((ℓ k : ℝ) : EReal) (Ideal.ofBits .f32 0x3F000000#32))
      = fun k => (((ℓ k * 2 : ℝ)) : EReal) := by
    funext k
    rw [ofBits_half, Ideal.div_coe (by norm_num), ← EReal.coe_mul]
    norm_num
  simp only [wK, wR]
  rw [h1, h2]
  simp only [smK_coe, smR_coe, ← EReal.coe_mul]

/-- The kernel's logit — each left factor scaled — is the real number `Σ q·s·k`. -/
theorem logitK_coe (q k : Fin 64 → ℝ) (s : ℝ) :
    (∑ e : Fin 64, (((q e : ℝ) : EReal) * ((s : ℝ) : EReal)) * ((k e : ℝ) : EReal)) = (((∑ e : Fin 64, q e * s * k e : ℝ)) : EReal) := by
  simp only [← EReal.coe_mul, coe_sum]

/-- The reference's logit — the finished sum scaled — is the same real number. -/
theorem logitR_coe (q k : Fin 64 → ℝ) (s : ℝ) :
    (∑ e : Fin 64, ((q e : ℝ) : EReal) * ((k e : ℝ) : EReal)) * ((s : ℝ) : EReal) = (((∑ e : Fin 64, q e * s * k e : ℝ)) : EReal) := by
  simp only [← EReal.coe_mul, coe_sum]
  rw [Finset.sum_mul]
  exact congrArg _ (Finset.sum_congr rfl fun e _ => by ring)

/-! ## The whole result, element by element -/

/-- The kernel's result at `(b, h, n, d)`: the weighted sum of the values' column `d`, the weights the kernel's, the
    logits the kernel's (each query entry scaled first). -/
def outK (Q K V : (⟨4, ![4, 8, 2048, 64]⟩ : Shape).Idx → EReal) (s : EReal) (b : Fin 4) (h : Fin 8) (n : Fin 2048) (d : Fin 64) : EReal :=
  ∑ j : Fin 2048, wK (fun j' => ∑ e : Fin 64, (Q (ix4 b h n e) * s) * K (ix4 b h j' e)) j * V (ix4 b h j d)

/-- The reference's result at `(b, h, n, d)`: the same sum with the reference's weights and logits. -/
def outR (Q K V : (⟨4, ![4, 8, 2048, 64]⟩ : Shape).Idx → EReal) (s : EReal) (b : Fin 4) (h : Fin 8) (n : Fin 2048) (d : Fin 64) : EReal :=
  ∑ j : Fin 2048, wR (fun j' => (∑ e : Fin 64, Q (ix4 b h n e) * K (ix4 b h j' e)) * s) j * V (ix4 b h j d)

/-- With real queries, keys and scale the two results are equal (the values may be anything). -/
theorem outK_eq_outR (Q K V : (⟨4, ![4, 8, 2048, 64]⟩ : Shape).Idx → EReal) (s : EReal)
    (hQ : ∀ i, ∃ r : ℝ, Q i = (r : EReal)) (hK : ∀ i, ∃ r : ℝ, K i = (r : EReal)) (hs : ∃ r : ℝ, s = (r : EReal))
    (b : Fin 4) (h : Fin 8) (n : Fin 2048) (d : Fin 64) : outK Q K V s b h n d = outR Q K V s b h n d := by
  obtain ⟨s', rfl⟩ := hs
  choose q hq using hQ
  choose k hk using hK
  unfold outK outR
  refine Finset.sum_congr rfl fun j _ => ?_
  have e1 : (fun j' : Fin 2048 => ∑ e : Fin 64, (Q (ix4 b h n e) * (s' : EReal)) * K (ix4 b h j' e))
      = fun j' => (((∑ e : Fin 64, q (ix4 b h n e) * s' * k (ix4 b h j' e) : ℝ)) : EReal) := by
    funext j'
    simp only [hq, hk]
    exact logitK_coe (fun e => q (ix4 b h n e)) (fun e => k (ix4 b h j' e)) s'
  have e2 : (fun j' : Fin 2048 => (∑ e : Fin 64, Q (ix4 b h n e) * K (ix4 b h j' e)) * (s' : EReal))
      = fun j' => (((∑ e : Fin 64, q (ix4 b h n e) * s' * k (ix4 b h j' e) : ℝ)) : EReal) := by
    funext j'
    simp only [hq, hk]
    exact logitR_coe (fun e => q (ix4 b h n e)) (fun e => k (ix4 b h j' e)) s'
  rw [e1, e2, wK_eq_wR]

end Cert.RowLaw

end
-- ==== Proof.Finite.lean ====
/-
  The precondition read: where `finite_inputs` evaluates to the one bit, every entry of the three
  4 × 8 × 2048 × 64 arrays and the scalar is a real number (its absolute value is below `+∞`, so it is
  neither infinity).
-/
import proofs.«419143_j25039659336082_3_alg».proof.Pre_finite_inputs
import proofs.«419143_j25039659336082_3_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- The word `0x7F800000` (sign 0, exponent all ones, mantissa 0) is read as `+∞`. -/
private theorem inf_bits : Ideal.ofBits .f32 0x7F800000#32 = (⊤ : EReal) := by
  simp [Ideal.ofBits, Ideal.ieee]

/-- The element fact: `|x| < +∞` holds of no infinity. On extended reals `|x|` is `max x (-x)`, which is `⊤`
    at both `⊥` and `⊤`, so the strict comparison with `⊤` leaves only the coerced reals. -/
private theorem real_of_abs_lt (x : Ideal .f32)
    (hx : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at hx
  rw [inf_bits] at hx
  induction x using EReal.rec with
  | bot => simp [Ideal.cmp] at hx
  | top => simp [Ideal.cmp] at hx
  | coe r => exact ⟨r, rfl⟩

/-- A rank-0 array has exactly one index. -/
private instance : Subsingleton S_.Idx := ⟨fun a b => funext fun d => d.elim0⟩

/-- Under the precondition every input entry is real. -/
theorem real_of_pre (a0 a1 a2 : FVec Ideal S4x8x2048x64 .f32) (a3 : FVec Ideal S_ .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  -- the predicate at its one index: an `and` of four one-bit words, each an `and`-reduction of a
  -- pointwise comparison `|a| < +∞` over all of an array's axes (for the scalar: over none)
  have h0 := congrFun h ValueIdx.ix0
  unfold Cert.Pre_finite_inputs.fn Cert.Pre_finite_inputs.fn_part1 at h0
  dsimp only at h0
  change IntOp.andi (IntOp.andi (IntOp.andi _ _) _) _ = 1#1 at h0
  -- an `and` of one-bit words is 1 exactly when both are
  obtain ⟨h012, h3⟩ := IntOp.andi_eq_one.1 h0
  obtain ⟨h01, h2⟩ := IntOp.andi_eq_one.1 h012
  obtain ⟨h0', h1⟩ := IntOp.andi_eq_one.1 h01
  -- an `and`-reduction into one result that is 1 met a 1 at every index; there the comparison is the
  -- element fact (the broadcast constant reads the same word at every index)
  refine ⟨fun i => ?_, fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.Finite

end
-- ==== Proof.RefValue.lean ====
/-
  The reference read at one element: its result at `(b, h, n, d)` is the weighted sum of column `d` of the
  values over the keys `j`, the weights the reference's doubly-normalised softmax of the row of logits
  `(Σ_e Q[b,h,n,e] · K[b,h,j,e]) · s`.

  The reading goes stage by stage along one query row `(b, h, n)`. The first product's element at key `j` is the
  logit `ℓ j`; dividing by one half gives the first softmax's argument row; its maximum over the keys is the fold of
  `max` from `-∞`, taken once more against `-∞`; subtracting, exponentiating, summing from the zero pattern and
  dividing give the first weights `p`. The second softmax runs the same way on the row `ℓ j · p j`, and the last
  product sums its weights against column `d` of the values.
-/
import proofs.«419143_j25039659336082_3_alg».proof.Proof.Gen.ReferenceIdeal.Read
import proofs.«419143_j25039659336082_3_alg».proof.Proof.RowLaw
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-- The logits of query row `(b, h, n)`: the scaled inner products with every key. -/
private def logit (Q K : FVec Ideal S4x8x2048x64 .f32) (S : FVec Ideal S_ .f32) (b : Fin 4) (h : Fin 8) (n : Fin 2048) (j : Fin 2048) : EReal :=
  (∑ e : Fin 64, Q (ix4 b h n e) * K (ix4 b h j e)) * S ix0

private theorem lidx0 (b : Fin 4) (h : Fin 8) (n j : Fin 2048) (e : Fin 64) :
    lidx_main_v0 (ix4 b h n j) e = ix4 b h n e := by
  funext a; match a with | ⟨0, _⟩ => rfl | ⟨1, _⟩ => rfl | ⟨2, _⟩ => rfl | ⟨3, _⟩ => rfl

private theorem ridx0 (b : Fin 4) (h : Fin 8) (n j : Fin 2048) (e : Fin 64) :
    ridx_main_v0 (ix4 b h n j) e = ix4 b h j e := by
  funext a; match a with | ⟨0, _⟩ => rfl | ⟨1, _⟩ => rfl | ⟨2, _⟩ => rfl | ⟨3, _⟩ => rfl

private theorem v2_at (Q K : FVec Ideal S4x8x2048x64 .f32) (S : FVec Ideal S_ .f32) (b : Fin 4) (h : Fin 8) (n j : Fin 2048) :
    val_main_v2 (F := Ideal) Q K S (ix4 b h n j) = logit Q K S b h n j := by
  rw [val_main_v2_apply, val_main_v0_apply, val_main_v1_apply, Ideal.mulf_def]
  unfold logit
  simp only [lidx0, ridx0]

/-- The first softmax's argument row: each logit divided by one half. -/
private def row1 (Q K : FVec Ideal S4x8x2048x64 .f32) (S : FVec Ideal S_ .f32) (b : Fin 4) (h : Fin 8) (n : Fin 2048) (j : Fin 2048) : EReal :=
  Ideal.div (logit Q K S b h n j) (Ideal.ofBits .f32 0x3F000000#32)

private theorem v4_at (Q K : FVec Ideal S4x8x2048x64 .f32) (S : FVec Ideal S_ .f32) (b : Fin 4) (h : Fin 8) (n j : Fin 2048) :
    val_main_v4 (F := Ideal) Q K S (ix4 b h n j) = row1 Q K S b h n j := by
  rw [val_main_v4_apply, val_main_v3_apply, val_main_cst_apply, v2_at, Ideal.hostDivf_def, Ideal.ofBits_def]
  rfl

/-- A max-reduction over the last axis, read at row `(b, h, n)`, is the fold of `max` over that row. -/
private theorem reduce_max_row (y : FVec Ideal S4x8x2048x2048 .f32) (c : FVec Ideal S_ .f32) (b : Fin 4) (h : Fin 8) (n : Fin 2048) :
    Host.reduce FloatOps.maximumf y c reducesTo_S4x8x2048x2048_S4x8x2048_d3 h_S_ (ix3 b h n)
      = (Finset.univ : Finset (Fin 2048)).fold max (c (Shape.Idx.first h_S_)) (fun j => y (ix4 b h n j)) := by
  have hR : S4x8x2048x2048.Reduces [3] S4x8x2048 := by decide
  rw [Host.reduce_eq_fold_single FloatOps.maximumf y c reducesTo_S4x8x2048x2048_S4x8x2048_d3 hR h_S_ (ix3 b h n)]
  have e : (y ∘ hR.lift (ix3 b h n)) = fun j => y (ix4 b h n j) := by
    funext j
    exact congrArg y (funext fun a => Fin.ext (by match a with | ⟨0, _⟩ => rfl | ⟨1, _⟩ => rfl | ⟨2, _⟩ => rfl | ⟨3, _⟩ => rfl))
  rw [e]
  rfl

private theorem v5_at (Q K : FVec Ideal S4x8x2048x64 .f32) (S : FVec Ideal S_ .f32) (b : Fin 4) (h : Fin 8) (n : Fin 2048) :
    val_main_v5 (F := Ideal) Q K S (ix3 b h n) = Cert.RowLaw.rowMax (row1 Q K S b h n) := by
  unfold val_main_v5
  rw [reduce_max_row, val_main_cst_0_apply, Ideal.ofBits_def]
  unfold Cert.RowLaw.rowMax
  rw [show (fun j => val_main_v4 (F := Ideal) Q K S (ix4 b h n j)) = row1 Q K S b h n from funext fun j => v4_at Q K S b h n j]

private theorem i8_at (b : Fin 4) (h : Fin 8) (n : Fin 2048) (z : Fin 1) : idx_main_v8 (ix4 b h n z) = ix3 b h n := by
  funext a; match a with | ⟨0, _⟩ => rfl | ⟨1, _⟩ => rfl | ⟨2, _⟩ => rfl

private theorem i9_at (b : Fin 4) (h : Fin 8) (n j : Fin 2048) : idx_main_v9 (ix4 b h n j) = ix4 b h n (0 : Fin 1) := by
  funext a; match a with | ⟨0, _⟩ => rfl | ⟨1, _⟩ => rfl | ⟨2, _⟩ => rfl | ⟨3, _⟩ => rfl

/-- The first softmax's row maximum, taken once more against `-∞`. -/
private def m1 (Q K : FVec Ideal S4x8x2048x64 .f32) (S : FVec Ideal S_ .f32) (b : Fin 4) (h : Fin 8) (n : Fin 2048) : EReal :=
  max (Ideal.ofBits .f32 0xFF800000#32) (Cert.RowLaw.rowMax (row1 Q K S b h n))

private theorem v7_at (Q K : FVec Ideal S4x8x2048x64 .f32) (S : FVec Ideal S_ .f32) (b : Fin 4) (h : Fin 8) (n : Fin 2048) :
    val_main_v7 (F := Ideal) Q K S (ix3 b h n) = m1 Q K S b h n := by
  rw [val_main_v7_apply, val_main_v6_apply, val_main_cst_1_apply, v5_at, Ideal.maximumf_def, Ideal.ofBits_def]
  rfl

private theorem v9_at (Q K : FVec Ideal S4x8x2048x64 .f32) (S : FVec Ideal S_ .f32) (b : Fin 4) (h : Fin 8) (n j : Fin 2048) :
    val_main_v9 (F := Ideal) Q K S (ix4 b h n j) = m1 Q K S b h n := by
  rw [val_main_v9_apply, i9_at, val_main_v8_apply, i8_at, v7_at]

private theorem v11_at (Q K : FVec Ideal S4x8x2048x64 .f32) (S : FVec Ideal S_ .f32) (b : Fin 4) (h : Fin 8) (n j : Fin 2048) :
    val_main_v11 (F := Ideal) Q K S (ix4 b h n j) = Ideal.exp (row1 Q K S b h n j - m1 Q K S b h n) := by
  rw [val_main_v11_apply, val_main_v10_apply, v4_at, v9_at, Ideal.subf_def, Ideal.hostUnary_exp_def]

private theorem i12_at (b : Fin 4) (h : Fin 8) (n k : Fin 2048) : idx_main_v12 (ix3 b h n) k = ix4 b h n k := by
  funext a; match a with | ⟨0, _⟩ => rfl | ⟨1, _⟩ => rfl | ⟨2, _⟩ => rfl | ⟨3, _⟩ => rfl

private theorem i13_at (b : Fin 4) (h : Fin 8) (n : Fin 2048) (z : Fin 1) : idx_main_v13 (ix4 b h n z) = ix3 b h n := by
  funext a; match a with | ⟨0, _⟩ => rfl | ⟨1, _⟩ => rfl | ⟨2, _⟩ => rfl

private theorem i14_at (b : Fin 4) (h : Fin 8) (n j : Fin 2048) : idx_main_v14 (ix4 b h n j) = ix4 b h n (0 : Fin 1) := by
  funext a; match a with | ⟨0, _⟩ => rfl | ⟨1, _⟩ => rfl | ⟨2, _⟩ => rfl | ⟨3, _⟩ => rfl

private theorem v12_at (Q K : FVec Ideal S4x8x2048x64 .f32) (S : FVec Ideal S_ .f32) (b : Fin 4) (h : Fin 8) (n : Fin 2048) :
    val_main_v12 (F := Ideal) Q K S (ix3 b h n)
      = Ideal.ofBits .f32 0x00000000#32 + ∑ k : Fin 2048, Ideal.exp (row1 Q K S b h n k - m1 Q K S b h n) := by
  rw [val_main_v12_apply, val_main_cst_2_apply, Ideal.ofBits_def]
  simp only [i12_at, v11_at]

private theorem v14_at (Q K : FVec Ideal S4x8x2048x64 .f32) (S : FVec Ideal S_ .f32) (b : Fin 4) (h : Fin 8) (n j : Fin 2048) :
    val_main_v14 (F := Ideal) Q K S (ix4 b h n j)
      = Ideal.ofBits .f32 0x00000000#32 + ∑ k : Fin 2048, Ideal.exp (row1 Q K S b h n k - m1 Q K S b h n) := by
  rw [val_main_v14_apply, i14_at, val_main_v13_apply, i13_at, v12_at]

private theorem v15_at (Q K : FVec Ideal S4x8x2048x64 .f32) (S : FVec Ideal S_ .f32) (b : Fin 4) (h : Fin 8) (n j : Fin 2048) :
    val_main_v15 (F := Ideal) Q K S (ix4 b h n j) = Cert.RowLaw.smR (row1 Q K S b h n) j := by
  rw [val_main_v15_apply, v11_at, v14_at, Ideal.hostDivf_def]
  rfl

/-- The second softmax's argument row: each logit times its first-softmax weight. -/
private def row2 (Q K : FVec Ideal S4x8x2048x64 .f32) (S : FVec Ideal S_ .f32) (b : Fin 4) (h : Fin 8) (n : Fin 2048) (j : Fin 2048) : EReal :=
  logit Q K S b h n j * Cert.RowLaw.smR (row1 Q K S b h n) j

private theorem v16_at (Q K : FVec Ideal S4x8x2048x64 .f32) (S : FVec Ideal S_ .f32) (b : Fin 4) (h : Fin 8) (n j : Fin 2048) :
    val_main_v16 (F := Ideal) Q K S (ix4 b h n j) = row2 Q K S b h n j := by
  rw [val_main_v16_apply, v2_at, v15_at, Ideal.mulf_def]
  rfl

private theorem v17_at (Q K : FVec Ideal S4x8x2048x64 .f32) (S : FVec Ideal S_ .f32) (b : Fin 4) (h : Fin 8) (n : Fin 2048) :
    val_main_v17 (F := Ideal) Q K S (ix3 b h n) = Cert.RowLaw.rowMax (row2 Q K S b h n) := by
  unfold val_main_v17
  rw [reduce_max_row, val_main_cst_3_apply, Ideal.ofBits_def]
  unfold Cert.RowLaw.rowMax
  rw [show (fun j => val_main_v16 (F := Ideal) Q K S (ix4 b h n j)) = row2 Q K S b h n from funext fun j => v16_at Q K S b h n j]

private theorem i20_at (b : Fin 4) (h : Fin 8) (n : Fin 2048) (z : Fin 1) : idx_main_v20 (ix4 b h n z) = ix3 b h n := by
  funext a; match a with | ⟨0, _⟩ => rfl | ⟨1, _⟩ => rfl | ⟨2, _⟩ => rfl

private theorem i21_at (b : Fin 4) (h : Fin 8) (n j : Fin 2048) : idx_main_v21 (ix4 b h n j) = ix4 b h n (0 : Fin 1) := by
  funext a; match a with | ⟨0, _⟩ => rfl | ⟨1, _⟩ => rfl | ⟨2, _⟩ => rfl | ⟨3, _⟩ => rfl

/-- The second softmax's row maximum, taken once more against `-∞`. -/
private def m2 (Q K : FVec Ideal S4x8x2048x64 .f32) (S : FVec Ideal S_ .f32) (b : Fin 4) (h : Fin 8) (n : Fin 2048) : EReal :=
  max (Ideal.ofBits .f32 0xFF800000#32) (Cert.RowLaw.rowMax (row2 Q K S b h n))

private theorem v19_at (Q K : FVec Ideal S4x8x2048x64 .f32) (S : FVec Ideal S_ .f32) (b : Fin 4) (h : Fin 8) (n : Fin 2048) :
    val_main_v19 (F := Ideal) Q K S (ix3 b h n) = m2 Q K S b h n := by
  rw [val_main_v19_apply, val_main_v18_apply, val_main_cst_4_apply, v17_at, Ideal.maximumf_def, Ideal.ofBits_def]
  rfl

private theorem v21_at (Q K : FVec Ideal S4x8x2048x64 .f32) (S : FVec Ideal S_ .f32) (b : Fin 4) (h : Fin 8) (n j : Fin 2048) :
    val_main_v21 (F := Ideal) Q K S (ix4 b h n j) = m2 Q K S b h n := by
  rw [val_main_v21_apply, i21_at, val_main_v20_apply, i20_at, v19_at]

private theorem v23_at (Q K : FVec Ideal S4x8x2048x64 .f32) (S : FVec Ideal S_ .f32) (b : Fin 4) (h : Fin 8) (n j : Fin 2048) :
    val_main_v23 (F := Ideal) Q K S (ix4 b h n j) = Ideal.exp (row2 Q K S b h n j - m2 Q K S b h n) := by
  rw [val_main_v23_apply, val_main_v22_apply, v16_at, v21_at, Ideal.subf_def, Ideal.hostUnary_exp_def]

private theorem i24_at (b : Fin 4) (h : Fin 8) (n k : Fin 2048) : idx_main_v24 (ix3 b h n) k = ix4 b h n k := by
  funext a; match a with | ⟨0, _⟩ => rfl | ⟨1, _⟩ => rfl | ⟨2, _⟩ => rfl | ⟨3, _⟩ => rfl

private theorem i25_at (b : Fin 4) (h : Fin 8) (n : Fin 2048) (z : Fin 1) : idx_main_v25 (ix4 b h n z) = ix3 b h n := by
  funext a; match a with | ⟨0, _⟩ => rfl | ⟨1, _⟩ => rfl | ⟨2, _⟩ => rfl

private theorem i26_at (b : Fin 4) (h : Fin 8) (n j : Fin 2048) : idx_main_v26 (ix4 b h n j) = ix4 b h n (0 : Fin 1) := by
  funext a; match a with | ⟨0, _⟩ => rfl | ⟨1, _⟩ => rfl | ⟨2, _⟩ => rfl | ⟨3, _⟩ => rfl

private theorem v24_at (Q K : FVec Ideal S4x8x2048x64 .f32) (S : FVec Ideal S_ .f32) (b : Fin 4) (h : Fin 8) (n : Fin 2048) :
    val_main_v24 (F := Ideal) Q K S (ix3 b h n)
      = Ideal.ofBits .f32 0x00000000#32 + ∑ k : Fin 2048, Ideal.exp (row2 Q K S b h n k - m2 Q K S b h n) := by
  rw [val_main_v24_apply, val_main_cst_5_apply, Ideal.ofBits_def]
  simp only [i24_at, v23_at]

private theorem v26_at (Q K : FVec Ideal S4x8x2048x64 .f32) (S : FVec Ideal S_ .f32) (b : Fin 4) (h : Fin 8) (n j : Fin 2048) :
    val_main_v26 (F := Ideal) Q K S (ix4 b h n j)
      = Ideal.ofBits .f32 0x00000000#32 + ∑ k : Fin 2048, Ideal.exp (row2 Q K S b h n k - m2 Q K S b h n) := by
  rw [val_main_v26_apply, i26_at, val_main_v25_apply, i25_at, v24_at]

private theorem v27_at (Q K : FVec Ideal S4x8x2048x64 .f32) (S : FVec Ideal S_ .f32) (b : Fin 4) (h : Fin 8) (n j : Fin 2048) :
    val_main_v27 (F := Ideal) Q K S (ix4 b h n j) = Cert.RowLaw.wR (logit Q K S b h n) j := by
  rw [val_main_v27_apply, v23_at, v26_at, Ideal.hostDivf_def]
  rfl

private theorem lidx28 (b : Fin 4) (h : Fin 8) (n : Fin 2048) (d : Fin 64) (k : Fin 2048) :
    lidx_main_v28 (ix4 b h n d) k = ix4 b h n k := by
  funext a; match a with | ⟨0, _⟩ => rfl | ⟨1, _⟩ => rfl | ⟨2, _⟩ => rfl | ⟨3, _⟩ => rfl

private theorem ridx28 (b : Fin 4) (h : Fin 8) (n : Fin 2048) (d : Fin 64) (k : Fin 2048) :
    ridx_main_v28 (ix4 b h n d) k = ix4 b h k d := by
  funext a; match a with | ⟨0, _⟩ => rfl | ⟨1, _⟩ => rfl | ⟨2, _⟩ => rfl | ⟨3, _⟩ => rfl

/-- The reference's result element. -/
theorem ref_apply (Q K V : FVec Ideal S4x8x2048x64 .f32) (S : FVec Ideal S_ .f32) (b : Fin 4) (h : Fin 8) (n : Fin 2048) (d : Fin 64) :
    val_main_v28 (F := Ideal) Q K V S (ix4 b h n d) = Cert.RowLaw.outR Q K V (S ix0) b h n d := by
  rw [val_main_v28_apply]
  simp only [lidx28, ridx28, v27_at]
  rfl

end Cert.RefValue

end
-- ==== Proof.Body.lean ====
/-
  The kernel's body read at one element.

  At a grid point the body loads a [1, 512, 64] block of scaled queries `x0`, the [1, 64, 2048] block of
  transposed keys `x1` and the [1, 2048, 64] block of values `x2`. Row `r` of the 512 × 2048 logits is
  `ℓ_r j = Σ_e x0[0, r, e] · x1[0, e, j]`; the two row softmaxes (each a row maximum, the exponentials of the
  differences, their row sum, and the product with the sum's reciprocal) turn it into the kernel's weights
  `RowLaw.wK ℓ_r`; and the stored block is, at `(0, r, d)`, the sum over the keys `j` of weight times
  `x2[0, j, d]`.
-/
import proofs.«419143_j25039659336082_3_alg».proof.Proof.Gen.KernelIdeal.Skeleton
import proofs.«419143_j25039659336082_3_alg».proof.Proof.RowLaw
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

variable {F : FTy → Type} [FloatOps F]

/-- The logits of a block: queries times transposed keys, into a zero accumulator. -/
def logits (x0 : Vec F S1x512x64 .bf16) (x1 : Vec F S1x64x2048 .bf16) : FVec F S512x2048 .f32 :=
  matmul dot_S512x64_S64x2048_S512x2048_1_0_0_1_n_n none (shapeCast S512x64 x0 shapeCasts_S1x512x64_S512x64)
    (shapeCast S64x2048 x1 shapeCasts_S1x64x2048_S64x2048) (constant S512x2048 .f32 0x00000000#32)

/-- Each row's maximum, spread back over the row. -/
def kmax (x : FVec F S512x2048 .f32) : FVec F S512x2048 .f32 :=
  broadcastTo S512x2048 (shapeCast S512x1
    (multiReduction .maximumf [1] S512 x 0xFF800000#32 reduces_S512x2048_S512 (.inl rfl) rfl) shapeCasts_S512_S512x1) broadcasts_S512x1_S512x2048

/-- The exponentials of the differences from the row maximum. -/
def kexp (x : FVec F S512x2048 .f32) : FVec F S512x2048 .f32 := exp (subf x (kmax x))

/-- The reciprocal of each row's sum of exponentials, spread back over the row. -/
def kinv (x : FVec F S512x2048 .f32) : FVec F S512x2048 .f32 :=
  broadcastTo S512x2048 (divf (broadcast S512x1 (Scalar.ofBits .f32 0x3F800000#32))
    (shapeCast S512x1 (multiReduction .add [1] S512 (kexp x) 0x00000000#32 reduces_S512x2048_S512 (.inl rfl) rfl) shapeCasts_S512_S512x1)) broadcasts_S512x1_S512x2048

/-- The body's row softmax of a 512 × 2048 vector: subtract the row maximum, exponentiate, multiply by the
    reciprocal of the row sum. -/
def ksoft (x : FVec F S512x2048 .f32) : FVec F S512x2048 .f32 := mulf (kexp x) (kinv x)

/-- The body's arithmetic is the two softmaxes over the logits, then the product with the values. -/
theorem pay_eq (x0 : Vec F S1x512x64 .bf16) (x1 : Vec F S1x64x2048 .bf16) (x2 : Vec F S1x2048x64 .bf16) :
    k0_pay1 x0 x1 x2 = shapeCast S1x512x64 (matmul dot_S512x2048_S2048x64_S512x64_1_0_0_1_n_n none
      (truncf .bf16 (ksoft (mulf (logits x0 x1) (ksoft (mulf (logits x0 x1) (broadcast S512x2048 (Scalar.ofBits .f32 0x40000000#32)))))) bitsLt_bf16_f32)
      (shapeCast S2048x64 x2 shapeCasts_S1x2048x64_S2048x64) (constant S512x64 .f32 0x00000000#32)) shapeCasts_S512x64_S1x512x64 := rfl

/-! ## Read at an element, on the extended reals -/

/-- A column of 512 spread over 2048 lanes reads its row's entry. -/
theorem bcast_col_apply (v : FVec Ideal S512x1 .f32) (r : Fin 512) (j : Fin 2048) :
    broadcastTo S512x2048 v broadcasts_S512x1_S512x2048 (ix2 r j) = v (ix2 r (0 : Fin 1)) := by
  refine broadcastTo_apply v broadcasts_S512x1_S512x2048 (ix2 r j) (ix2 r (0 : Fin 1)) fun a => ?_
  match a with
  | ⟨0, _⟩ => rfl
  | ⟨1, _⟩ => rfl

/-- A vector of 512 viewed as a column reads its entry. -/
theorem col_apply (v : FVec Ideal S512 .f32) (r : Fin 512) :
    shapeCast S512x1 v shapeCasts_S512_S512x1 (ix2 r (0 : Fin 1)) = v (ix1 r) :=
  shapeCast_apply v shapeCasts_S512_S512x1 _ _ (by
    rw [Shape.rowMajor_val_one, Shape.rowMajor_val_two]
    show r.val = r.val * 1 + 0
    omega)

/-- The row's index with the lane put back. -/
theorem lift_row (r : Fin 512) (k : Fin 2048) :
    (reduces_S512x2048_S512).lift (ix1 r) k = ix2 r k :=
  funext fun a => Fin.ext (by match a with | ⟨0, _⟩ => rfl | ⟨1, _⟩ => rfl)

theorem kmax_apply (x : FVec Ideal S512x2048 .f32) (r : Fin 512) (j : Fin 2048) :
    kmax (F := Ideal) x (ix2 r j) = Cert.RowLaw.rowMax (fun k => x (ix2 r k)) := by
  unfold kmax
  rw [bcast_col_apply, col_apply]
  refine (Ideal.multiReduction_maximumf_single x 0xFF800000#32 reduces_S512x2048_S512 (.inl rfl) rfl (ix1 r)).trans ?_
  unfold Cert.RowLaw.rowMax
  refine congrArg (Finset.fold max (Ideal.ofBits .f32 0xFF800000#32) · Finset.univ) ?_
  funext k
  exact congrArg x (lift_row r k)

theorem kexp_apply (x : FVec Ideal S512x2048 .f32) (r : Fin 512) (j : Fin 2048) :
    kexp (F := Ideal) x (ix2 r j) = Ideal.exp (x (ix2 r j) - Cert.RowLaw.rowMax (fun k => x (ix2 r k))) := by
  unfold kexp
  show Ideal.exp (x (ix2 r j) - kmax x (ix2 r j)) = _
  rw [kmax_apply]

theorem kinv_apply (x : FVec Ideal S512x2048 .f32) (r : Fin 512) (j : Fin 2048) :
    kinv (F := Ideal) x (ix2 r j) = Ideal.div (Ideal.ofBits .f32 0x3F800000#32)
      (∑ k : Fin 2048, Ideal.exp (x (ix2 r k) - Cert.RowLaw.rowMax (fun k' => x (ix2 r k')))) := by
  unfold kinv
  rw [bcast_col_apply]
  show Ideal.div (Ideal.ofBits .f32 0x3F800000#32) (shapeCast S512x1 _ shapeCasts_S512_S512x1 (ix2 r (0 : Fin 1))) = _
  rw [col_apply]
  refine congrArg (Ideal.div _) ?_
  refine (Ideal.multiReduction_add_single (kexp x) 0x00000000#32 reduces_S512x2048_S512 (.inl rfl) rfl (ix1 r)).trans ?_
  exact Finset.sum_congr rfl fun k _ => (congrArg (kexp x) (lift_row r k)).trans (kexp_apply x r k)

/-- The body's row softmax at an element is the kernel's softmax of that row. -/
theorem ksoft_apply (x : FVec Ideal S512x2048 .f32) (r : Fin 512) (j : Fin 2048) :
    ksoft (F := Ideal) x (ix2 r j) = Cert.RowLaw.smK (fun k => x (ix2 r k)) j := by
  unfold ksoft Cert.RowLaw.smK
  show kexp x (ix2 r j) * kinv x (ix2 r j) = _
  rw [kexp_apply, kinv_apply]

/-! ## The two matrix products read at an element -/

theorem lhsA_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhsA_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhsA_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhsA_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Row `r`, lane `j` of the logits: the sum over the 64 features of query entry times key entry. -/
theorem logits_apply (x0 : FVec Ideal S1x512x64 .bf16) (x1 : FVec Ideal S1x64x2048 .bf16) (r : Fin 512) (j : Fin 2048) :
    logits (F := Ideal) x0 x1 (ix2 r j) = ∑ e : Fin 64, x0 (ix3 (0 : Fin 1) r e) * x1 (ix3 (0 : Fin 1) e j) := by
  unfold logits
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 r j) ((contrEquiv1 dot_S512x64_S64x2048_S512x2048_1_0_0_1_n_n 64 rfl rfl).symm k) = ix2 r k := funext fun a => Fin.ext (by
    match a with
    | ⟨0, _⟩ => exact lhsA_0 _ _
    | ⟨1, _⟩ => exact (lhsA_1 _ _).trans hk)
  have er : dot_S512x64_S64x2048_S512x2048_1_0_0_1_n_n.rhsIdx (ix2 r j) ((contrEquiv1 dot_S512x64_S64x2048_S512x2048_1_0_0_1_n_n 64 rfl rfl).symm k) = ix2 k j := funext fun a => Fin.ext (by
    match a with
    | ⟨0, _⟩ => exact (rhsA_0 _ _).trans hk
    | ⟨1, _⟩ => exact rhsA_1 _ _)
  rw [el, er, shapeCast_1ab_ab_apply, shapeCast_1ab_ab_apply]

theorem lhsB_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhsB_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhsB_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhsB_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times values: row `r`, column `d` is the sum over the 2048 keys. -/
theorem wv_apply (a : FVec Ideal S512x2048 .bf16) (x2 : FVec Ideal S1x2048x64 .bf16) (r : Fin 512) (d : Fin 64) :
    matmul dot_S512x2048_S2048x64_S512x64_1_0_0_1_n_n none a (shapeCast S2048x64 x2 shapeCasts_S1x2048x64_S2048x64)
      (constant S512x64 .f32 0x00000000#32) (ix2 r d) = ∑ j : Fin 2048, a (ix2 r j) * x2 (ix3 (0 : Fin 1) j d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact lhsB_0 _ _
    | ⟨1, _⟩ => exact (lhsB_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (rhsB_0 _ _).trans hk
    | ⟨1, _⟩ => exact rhsB_1 _ _)
  rw [el, er, shapeCast_1ab_ab_apply]

/-- THE BODY'S RESULT AT AN ELEMENT: entry `(0, r, d)` of the stored block is the sum over the keys of the kernel's
    weight of row `r`'s logits times the value entry. -/
theorem pay_apply (x0 : FVec Ideal S1x512x64 .bf16) (x1 : FVec Ideal S1x64x2048 .bf16) (x2 : FVec Ideal S1x2048x64 .bf16)
    (u : Fin 1) (r : Fin 512) (d : Fin 64) :
    k0_pay1 (F := Ideal) x0 x1 x2 (ix3 u r d)
      = ∑ j : Fin 2048, Cert.RowLaw.wK (fun j' => ∑ e : Fin 64, x0 (ix3 (0 : Fin 1) r e) * x1 (ix3 (0 : Fin 1) e j')) j * x2 (ix3 (0 : Fin 1) j d) := by
  rw [pay_eq, shapeCast_ab_1ab_apply, wv_apply]
  refine Finset.sum_congr rfl fun j _ => ?_
  refine congrArg (· * x2 (ix3 (0 : Fin 1) j d)) ?_
  show ksoft (F := Ideal) (mulf (logits (F := Ideal) x0 x1) (ksoft (F := Ideal) (mulf (logits (F := Ideal) x0 x1) (broadcast S512x2048 (Scalar.ofBits .f32 0x40000000#32))))) (ix2 r j) = _
  rw [ksoft_apply]
  unfold Cert.RowLaw.wK
  refine congrArg (Cert.RowLaw.smK · j) ?_
  funext k
  show logits (F := Ideal) x0 x1 (ix2 r k) * ksoft (F := Ideal) (mulf (logits (F := Ideal) x0 x1) (broadcast S512x2048 (Scalar.ofBits .f32 0x40000000#32))) (ix2 r k) = _
  rw [ksoft_apply, logits_apply]
  refine congrArg (_ * Cert.RowLaw.smK · k) ?_
  funext k'
  show logits (F := Ideal) x0 x1 (ix2 r k') * Ideal.ofBits .f32 0x40000000#32 = _
  rw [logits_apply]

end Cert.KernelIdeal.Body

end
-- ==== Proof.Arrays.lean ====
/-
  The three arrays the region finds, read at an element.

  Before the region the program scales the queries by the scalar, flattens the two leading axes (batch `b`,
  head `h`) of queries, keys and values into one axis of 32 = 4 · 8 (position `b · 8 + h`), and transposes
  the keys' last two axes. So at flattened position `bh` the region finds
      queries  [bh, n, e]  =  Q[bh / 8, bh % 8, n, e] · s,
      keysᵀ    [bh, e, j]  =  K[bh / 8, bh % 8, j, e],
      values   [bh, j, d]  =  V[bh / 8, bh % 8, j, d]
  (the changes of float format are the identity on the extended reals).
-/
import proofs.«419143_j25039659336082_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo

/-- The batch of a flattened (batch, head) position. -/
def bOf (bh : Fin 32) : Fin 4 := ⟨bh.val / 8, by have := bh.isLt; omega⟩
/-- The head of a flattened (batch, head) position. -/
def hOf (bh : Fin 32) : Fin 8 := ⟨bh.val % 8, by omega⟩

variable (m : (ℓ : Loc nD τ sig) → Buf (Elt Ideal) ℓ)

/-- The four argument arrays as launched, and the three arrays the region's input windows stage, each at its literal type. -/
abbrev A0 (c : Dev nD) : FVec Ideal S4x8x2048x64 .f32 := m ((c : Thread nD τ).loc main_arg0)
abbrev A1 (c : Dev nD) : FVec Ideal S4x8x2048x64 .f32 := m ((c : Thread nD τ).loc main_arg1)
abbrev A2 (c : Dev nD) : FVec Ideal S4x8x2048x64 .f32 := m ((c : Thread nD τ).loc main_arg2)
abbrev A3 (c : Dev nD) : FVec Ideal S_ .f32 := m ((c : Thread nD τ).loc main_arg3)
abbrev Qs (c : Dev nD) : FVec Ideal S32x2048x64 .bf16 := V m c main_v3
abbrev Kt (c : Dev nD) : FVec Ideal S32x64x2048 .bf16 := V m c main_v6
abbrev Vf (c : Dev nD) : FVec Ideal S32x2048x64 .bf16 := V m c main_v8

/-- The scaled, flattened queries as the region finds them. -/
theorem Qs_eq (c : Dev nD) : Qs m c
    = truncf .bf16 (shapeCast S32x2048x64 (mulf (A0 m c)
        (broadcastInDim S4x8x2048x64 ![] bcast_S_S4x8x2048x64 (A3 m c))) shapeCasts_S4x8x2048x64_S32x2048x64) bitsLt_bf16_f32 := by
  show StableHlo.after hostOps0 (fun b => m (c, b)) (Proc.devRef .tc main_v3) = _
  after_results
  rfl

/-- The transposed, flattened keys as the region finds them. -/
theorem Kt_eq (c : Dev nD) : Kt m c
    = truncf .bf16 (shapeCast S32x64x2048 (transpose S4x8x64x2048 [0, 1, 3, 2] (A1 m c)
        transposes_S4x8x2048x64_S4x8x64x2048_0_1_3_2) shapeCasts_S4x8x64x2048_S32x64x2048) bitsLt_bf16_f32 := by
  show StableHlo.after hostOps0 (fun b => m (c, b)) (Proc.devRef .tc main_v6) = _
  after_results
  rfl

/-- The flattened values as the region finds them. -/
theorem Vf_eq (c : Dev nD) : Vf m c
    = truncf .bf16 (shapeCast S32x2048x64 (A2 m c) shapeCasts_S4x8x2048x64_S32x2048x64) bitsLt_bf16_f32 := by
  show StableHlo.after hostOps0 (fun b => m (c, b)) (Proc.devRef .tc main_v8) = _
  after_results
  rfl

/-- Flattening the two leading axes: position `bh` of the 32 is batch `bh / 8`, head `bh % 8`. -/
theorem flat_apply (X : S4x8x2048x64.Idx → EReal) (bh : Fin 32) (n : Fin 2048) (e : Fin 64) :
    shapeCast S32x2048x64 X shapeCasts_S4x8x2048x64_S32x2048x64 (ix3 bh n e) = X (ix4 (bOf bh) (hOf bh) n e) :=
  shapeCast_apply X shapeCasts_S4x8x2048x64_S32x2048x64 _ _ (by
    rw [Shape.rowMajor_val_four, Shape.rowMajor_val_three]
    show ((bh.val / 8 * 8 + bh.val % 8) * 2048 + n.val) * 64 + e.val = (bh.val * 2048 + n.val) * 64 + e.val
    have : bh.val / 8 * 8 + bh.val % 8 = bh.val := by omega
    rw [this])

theorem Qs_apply (c : Dev nD) (bh : Fin 32) (n : Fin 2048) (e : Fin 64) :
    Qs m c (ix3 bh n e) = A0 m c (ix4 (bOf bh) (hOf bh) n e) * A3 m c ix0 := by
  rw [Qs_eq, truncf_apply, flat_apply, mulf_apply,
    broadcastInDim_apply _ bcast_S_S4x8x2048x64 (A3 m c) _ ix0 (fun a => a.elim0)]

theorem Vf_apply (c : Dev nD) (bh : Fin 32) (j : Fin 2048) (d : Fin 64) :
    Vf m c (ix3 bh j d) = A2 m c (ix4 (bOf bh) (hOf bh) j d) := by
  rw [Vf_eq, truncf_apply, flat_apply]

theorem Kt_apply (c : Dev nD) (bh : Fin 32) (e : Fin 64) (j : Fin 2048) :
    Kt m c (ix3 bh e j) = A1 m c (ix4 (bOf bh) (hOf bh) j e) := by
  rw [Kt_eq, truncf_apply]
  refine (shapeCast_apply _ shapeCasts_S4x8x64x2048_S32x64x2048 (ix3 bh e j) (ix4 (bOf bh) (hOf bh) e j) (by
    rw [Shape.rowMajor_val_four, Shape.rowMajor_val_three]
    show ((bh.val / 8 * 8 + bh.val % 8) * 64 + e.val) * 2048 + j.val = (bh.val * 64 + e.val) * 2048 + j.val
    have : bh.val / 8 * 8 + bh.val % 8 = bh.val := by omega
    rw [this])).trans ?_
  refine transpose_apply [0, 1, 3, 2] (A1 m c) transposes_S4x8x2048x64_S4x8x64x2048_0_1_3_2 _ (ix4 (bOf bh) (hOf bh) j e) fun b => ?_
  match b with
  | ⟨0, _⟩ => rfl
  | ⟨1, _⟩ => rfl
  | ⟨2, _⟩ => rfl
  | ⟨3, _⟩ => rfl

end Cert.KernelIdeal.Arrays

end
-- ==== Proof.Final.lean ====
/-
  The kernel's result array.

  The grid has 32 · 4 points; point `t` works on flattened (batch, head) position `t / 4` and on the 512
  query rows of tile `t % 4`. Its three input blocks are rows `(t % 4) · 512 + r` of the scaled queries at
  position `t / 4`, and ALL transposed keys and ALL values at that position; by the body's reading
  (`Body.pay_apply`) the block it writes back is block `t` of ONE array
      G9[bh, n, d] = Σ_j wK(row of logits of query n)(j) · V[bh / 8, bh % 8, j, d].
  The 128 blocks tile the [32, 2048, 64] result, so after the run the result array is G9, and the final
  reshape to [4, 8, 2048, 64] reads it at `b · 8 + h`.
-/
import proofs.«419143_j25039659336082_3_alg».proof.Proof.Gen.KernelIdeal.Frame
import proofs.«419143_j25039659336082_3_alg».proof.Proof.Body
import proofs.«419143_j25039659336082_3_alg».proof.Proof.Arrays
import proofs.«419143_j25039659336082_3_alg».proof.Proof.RowLaw
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Idealize.ShloMosaic.StableHlo
open Cert.KernelIdeal.Arrays Cert.KernelIdeal.Body
open Idealize.ShloMosaic.Pipeline (Dat)

variable (m : (ℓ : Loc nD τ sig) → Buf (Elt Ideal) ℓ) (ρ : Dev nD → PrngReg)

/-- The region's result array as one function of the argument arrays. -/
def G9 (c : Dev nD) : FVec Ideal S32x2048x64 .f32 := fun i =>
  Cert.RowLaw.outK (A0 m c) (A1 m c) (A2 m c) (A3 m c ix0) (bOf (i 0)) (hOf (i 0)) (i 1) (i 2)

theorem G9_of (c : Dev nD) (i : S32x2048x64.Idx) (bh : Fin 32) (n : Fin 2048) (d : Fin 64)
    (h0 : (i 0).val = bh.val) (h1 : (i 1).val = n.val) (h2 : (i 2).val = d.val) :
    G9 m c i = Cert.RowLaw.outK (A0 m c) (A1 m c) (A2 m c) (A3 m c ix0) (bOf bh) (hOf bh) n d := by
  have e : i = ix3 bh n d := funext fun a => Fin.ext (by
    match a with
    | ⟨0, _⟩ => exact h0
    | ⟨1, _⟩ => exact h1
    | ⟨2, _⟩ => exact h2)
  rw [e]
  rfl

/-- One grid point: with the three loaded blocks being the stated rows of the arrays, the stored block is the
    matching block of the result function. -/
theorem point_eq (Q K V : FVec Ideal S4x8x2048x64 .f32) (s : EReal)
    (x0 : FVec Ideal S1x512x64 .bf16) (x1 : FVec Ideal S1x64x2048 .bf16) (x2 : FVec Ideal S1x2048x64 .bf16)
    (bh : Fin 32) (qt : Fin 4)
    (h0 : ∀ (r : Fin 512) (e : Fin 64), x0 (ix3 (0 : Fin 1) r e) = Q (ix4 (bOf bh) (hOf bh) ⟨qt.val * 512 + r.val, by omega⟩ e) * s)
    (h1 : ∀ (e : Fin 64) (j : Fin 2048), x1 (ix3 (0 : Fin 1) e j) = K (ix4 (bOf bh) (hOf bh) j e))
    (h2 : ∀ (j : Fin 2048) (d : Fin 64), x2 (ix3 (0 : Fin 1) j d) = V (ix4 (bOf bh) (hOf bh) j d))
    (u : Fin 1) (r : Fin 512) (d : Fin 64) :
    k0_pay1 (F := Ideal) x0 x1 x2 (ix3 u r d)
      = Cert.RowLaw.outK Q K V s (bOf bh) (hOf bh) ⟨qt.val * 512 + r.val, by omega⟩ d := by
  rw [pay_apply]
  unfold Cert.RowLaw.outK
  refine Finset.sum_congr rfl fun j _ => ?_
  rw [h2]
  refine congrArg (fun f => Cert.RowLaw.wK f j * V (ix4 (bOf bh) (hOf bh) j d)) ?_
  funext j'
  exact Finset.sum_congr rfl fun e _ => by rw [h0, h1]

/-- The printed index maps over the 128 points: the flattened position is `t / 4`, the query tile `t % 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

theorem hz3 : (![0, 0, 0] : Fin 3 → Nat) = fun _ => 0 := funext fun a => by fin_cases a <;> rfl

/-- The input blocks of a point, each at its literal type. -/
abbrev B0 (c : Dev nD) (t : Fin cfg0.N) : FVec Ideal S1x512x64 .bf16 := iblk m c 0 t
abbrev B1 (c : Dev nD) (t : Fin cfg0.N) : FVec Ideal S1x64x2048 .bf16 := iblk m c 1 t
abbrev B2 (c : Dev nD) (t : Fin cfg0.N) : FVec Ideal S1x2048x64 .bf16 := iblk m c 2 t

theorem tdiv_lt (t : Fin cfg0.N) : t.val / 4 < 32 := by
  have : t.val < 128 := lt_of_lt_of_eq t.isLt N_0
  omega

/-- The queries' block at point `t`: rows `(t % 4) · 512 + r` at position `t / 4`. -/
theorem B0_apply (c : Dev nD) (t : Fin cfg0.N) (r : Fin 512) (e : Fin 64) :
    B0 m c t (ix3 (0 : Fin 1) r e) = Qs m c (ix3 ⟨t.val / 4, tdiv_lt t⟩ ⟨t.val % 4 * 512 + r.val, by omega⟩ e) := by
  obtain ⟨e0, e1, e2, -⟩ := idx_facts t
  show Qs m c (((cfg0.win 0).blk t).view.emb (ix3 (0 : Fin 1) r e)) = _
  refine congrArg (Qs m c) (funext fun a => Fin.ext ?_)
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 64 + 1 * e.val = e.val; omega

/-- The keys' block at point `t`: everything at position `t / 4`. -/
theorem B1_apply (c : Dev nD) (t : Fin cfg0.N) (e : Fin 64) (j : Fin 2048) :
    B1 m c t (ix3 (0 : Fin 1) e j) = Kt m c (ix3 ⟨t.val / 4, tdiv_lt t⟩ e j) := by
  obtain ⟨-, -, -, e0, e1, e2, -⟩ := idx_facts t
  show Kt m c (((cfg0.win 1).blk t).view.emb (ix3 (0 : Fin 1) e j)) = _
  refine congrArg (Kt m c) (funext fun a => Fin.ext ?_)
  match a with
  | ⟨0, _⟩ => show win0_1.index t (0 : Fin 3) * 1 + 1 * 0 = t.val / 4; omega
  | ⟨1, _⟩ => show win0_1.index t (1 : Fin 3) * 64 + 1 * e.val = e.val; omega
  | ⟨2, _⟩ => show win0_1.index t (2 : Fin 3) * 2048 + 1 * j.val = j.val; omega

/-- The values' block at point `t`: everything at position `t / 4`. -/
theorem B2_apply (c : Dev nD) (t : Fin cfg0.N) (j : Fin 2048) (d : Fin 64) :
    B2 m c t (ix3 (0 : Fin 1) j d) = Vf m c (ix3 ⟨t.val / 4, tdiv_lt t⟩ j d) := by
  obtain ⟨-, -, -, -, -, -, e0, e1, e2, -⟩ := idx_facts t
  show Vf m c (((cfg0.win 2).blk t).view.emb (ix3 (0 : Fin 1) j d)) = _
  refine congrArg (Vf m c) (funext fun a => Fin.ext ?_)
  match a with
  | ⟨0, _⟩ => show win0_2.index t (0 : Fin 3) * 1 + 1 * 0 = t.val / 4; omega
  | ⟨1, _⟩ => show win0_2.index t (1 : Fin 3) * 2048 + 1 * j.val = j.val; omega
  | ⟨2, _⟩ => show win0_2.index t (2 : Fin 3) * 64 + 1 * d.val = d.val; omega

/-- WHAT POINT `t` WRITES BACK is block `t` of the result function. -/
theorem flushed_eq (c : Dev nD) (t : Fin cfg0.N) :
    (dats m 0 c).flushed 3 t = ((cfg0.win 3).blk t).view.read (Elt Ideal) (G9 m c) := by
  show (cfg0.win 3).cut (grid0.coords t) ((dats m 0 c).after 3 t) = _
  rw [after0_3]
  unfold out0_3
  rw [View.canon_unit_zero hz3]
  simp only [View.ld_unit_zero (S := S1x512x64) hz3, View.ld_unit_zero (S := S1x64x2048) hz3, View.ld_unit_zero (S := S1x2048x64) hz3]
  obtain ⟨-, -, -, -, -, -, -, -, -, e0, e1, e2⟩ := idx_facts t
  have ht : t.val < 128 := lt_of_lt_of_eq t.isLt N_0
  funext y
  have hy0 : (y 0).val < 1 := (y 0).isLt
  have hy1 : (y 1).val < 512 := (y 1).isLt
  have hy2 : (y 2).val < 64 := (y 2).isLt
  have hyy : (y : S1x512x64.Idx) = ix3 (⟨(y 0).val, hy0⟩ : Fin 1) (⟨(y 1).val, hy1⟩ : Fin 512) (⟨(y 2).val, hy2⟩ : Fin 64) :=
    funext fun a => Fin.ext (by match a with | ⟨0, _⟩ => rfl | ⟨1, _⟩ => rfl | ⟨2, _⟩ => rfl)
  show k0_pay1 (F := Ideal) (B0 m c t) (B1 m c t) (B2 m c t) (y : S1x512x64.Idx) = G9 m c (((cfg0.win 3).blk t).view.emb y)
  rw [hyy]
  refine (point_eq (A0 m c) (A1 m c) (A2 m c) (A3 m c ix0) (B0 m c t) (B1 m c t) (B2 m c t) ⟨t.val / 4, tdiv_lt t⟩ ⟨t.val % 4, by omega⟩
    (fun r e => by rw [B0_apply, Qs_apply]) (fun e j => by rw [B1_apply, Kt_apply]) (fun j d => by rw [B2_apply, Vf_apply]) _ _ _).trans ?_
  refine (G9_of m c _ ⟨t.val / 4, tdiv_lt t⟩ ⟨t.val % 4 * 512 + (y 1).val, by omega⟩ ⟨(y 2).val, hy2⟩ ?_ ?_ ?_).symm
  · show win0_3.index t (0 : Fin 3) * 1 + 1 * (y 0).val = t.val / 4; omega
  · show win0_3.index t (1 : Fin 3) * 512 + 1 * (y 1).val = t.val % 4 * 512 + (y 1).val; omega
  · show win0_3.index t (2 : Fin 3) * 64 + 1 * (y 2).val = (y 2).val; omega

/-- An index of the result array is in point `t`'s block iff each coordinate is in the block's range on its axis. -/
theorem mem_blk3 (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v9).slice (win0_3.rect t)).set ↔ _
  rw [View.set_slice_whole, Rect.mem_set_unit]
  exact Iff.rfl

/-- The 128 blocks tile the result array: index `(bh, n, d)` lies in the block of point `bh · 4 + n / 512`. -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  have hlt : (i 0).val * 4 + (i 1).val / 512 < cfg0.N := lt_of_lt_of_eq (b := 128) (by omega) N_0.symm
  refine ⟨⟨(i 0).val * 4 + (i 1).val / 512, hlt⟩, flush0_3 _, ?_⟩
  rw [mem_blk3]
  obtain ⟨-, -, -, -, -, -, -, -, -, e0, e1, e2⟩ := idx_facts ⟨(i 0).val * 4 + (i 1).val / 512, hlt⟩
  have f0 : win0_3.index ⟨(i 0).val * 4 + (i 1).val / 512, hlt⟩ (0 : Fin 3) = ((i 0).val * 4 + (i 1).val / 512) / 4 := e0
  have f1 : win0_3.index ⟨(i 0).val * 4 + (i 1).val / 512, hlt⟩ (1 : Fin 3) = ((i 0).val * 4 + (i 1).val / 512) % 4 := e1
  intro a
  match a with
  | ⟨0, _⟩ =>
    show win0_3.index ⟨(i 0).val * 4 + (i 1).val / 512, hlt⟩ (0 : Fin 3) * 1 ≤ (i 0).val ∧ (i 0).val < win0_3.index ⟨(i 0).val * 4 + (i 1).val / 512, hlt⟩ (0 : Fin 3) * 1 + 1
    omega
  | ⟨1, _⟩ =>
    show win0_3.index ⟨(i 0).val * 4 + (i 1).val / 512, hlt⟩ (1 : Fin 3) * 512 ≤ (i 1).val ∧ (i 1).val < win0_3.index ⟨(i 0).val * 4 + (i 1).val / 512, hlt⟩ (1 : Fin 3) * 512 + 512
    omega
  | ⟨2, _⟩ =>
    show win0_3.index ⟨(i 0).val * 4 + (i 1).val / 512, hlt⟩ (2 : Fin 3) * 64 ≤ (i 2).val ∧ (i 2).val < win0_3.index ⟨(i 0).val * 4 + (i 1).val / 512, hlt⟩ (2 : Fin 3) * 64 + 64
    omega

/-- THE RESULT ARRAY after the run is the result function. -/
theorem final9 (c : Dev nD) : (dats m 0 c).arrAt 3 cfg0.N = G9 m c :=
  (dats m 0 c).arrAt_eq_of_cover 3 (G9 m c) (fun t _ => flushed_eq m c t) cover

/-- The program's result: the final reshape of the region's result array. -/
theorem result_eq (c : Dev nD) :
    (Pipeline.afterTail₀ cfgs (dats m) 0 (V0 m) [hostOps1] c main_v10 : FVec Ideal S4x8x2048x64 .f32)
      = shapeCast S4x8x2048x64 (G9 m c) shapeCasts_S32x2048x64_S4x8x2048x64 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9) = G9 m c :=
    (Pipeline.withArrays_arr spec0 launch0.win.arr_inj c _ _ 3).trans (final9 m c)
  rw [e]
  rfl

/-- The run, read: the program's result is the reshaped result function, and the arguments end unchanged. -/
theorem run_value : θ_run defs (onTc (τ := τ) (main (F := Ideal))) ⟨m, fun _ => 0, ρ⟩ fun r => ∀ c : Dev nD,
      r.2.mem ((c.tc : Thread nD τ).loc main_v10) = shapeCast S4x8x2048x64 (G9 m c) shapeCasts_S32x2048x64_S4x8x2048x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v10 (Pipeline.mem_restRefs_of main_v10 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

/-- The result read at `(b, h, n, d)`: the reshape reads flattened position `b · 8 + h`, whose batch is `b` and head `h`. -/
theorem result_apply (c : Dev nD) (b : Fin 4) (h : Fin 8) (n : Fin 2048) (d : Fin 64) :
    shapeCast S4x8x2048x64 (G9 m c) shapeCasts_S32x2048x64_S4x8x2048x64 (ix4 b h n d)
      = Cert.RowLaw.outK (A0 m c) (A1 m c) (A2 m c) (A3 m c ix0) b h n d := by
  have hb : bOf ⟨b.val * 8 + h.val, by omega⟩ = b := Fin.ext (by show (b.val * 8 + h.val) / 8 = b.val; omega)
  have hh : hOf ⟨b.val * 8 + h.val, by omega⟩ = h := Fin.ext (by show (b.val * 8 + h.val) % 8 = h.val; omega)
  refine (shapeCast_apply (G9 m c) shapeCasts_S32x2048x64_S4x8x2048x64 (ix4 b h n d) (ix3 ⟨b.val * 8 + h.val, by omega⟩ n d) (by
    rw [Shape.rowMajor_val_four, Shape.rowMajor_val_three]
    rfl)).trans ?_
  rw [G9_of m c _ ⟨b.val * 8 + h.val, by omega⟩ n d rfl rfl rfl, hb, hh]

end Cert.KernelIdeal.Final

end
-- ==== Proof.lean ====
/-
  Attention with a soft mask, tiled over queries, against its jnp reference, on the extended reals.

  Both programs compute, for every batch `b`, head `h`, query `n` and feature `d`,
      out[b,h,n,d] = Σ_j a_j · V[b,h,j,d],   a = softmax (ℓ · softmax (2 ℓ)),   ℓ_j = s · Σ_e Q[b,h,n,e] K[b,h,j,e].
  They differ in three spellings only: the kernel scales the queries before the product where the reference
  scales the finished logits; it multiplies by `2` where the reference divides by `1/2`; and it multiplies each
  exponential by the reciprocal of the row sum where the reference divides by the sum. On real inputs —
  the precondition — every logit, row maximum and exponential is real and every row sum positive, and
  the spellings agree (Proof/RowLaw.lean). The kernel's side is read off its run: each grid point writes one
  512-row block of one result array, the blocks tile it, and a final reshape splits the flattened
  (batch, head) axis (Proof/Body.lean, Proof/Arrays.lean, Proof/Final.lean); the reference's side is its
  operations read one at a time at an element (Proof/RefValue.lean); Proof/Finite.lean reads the
  precondition. The kernel's idealization rewrote nothing, so `preserves` is trivial.
-/
import proofs.«419143_j25039659336082_3_alg».proof.Defs
import proofs.«419143_j25039659336082_3_alg».proof.Proof.Gen.Kernel
import proofs.«419143_j25039659336082_3_alg».proof.Proof.Gen.Kernel.Skeleton
import proofs.«419143_j25039659336082_3_alg».proof.Proof.Gen.Kernel.Launch
import proofs.«419143_j25039659336082_3_alg».proof.Proof.Gen.Kernel.Points
import proofs.«419143_j25039659336082_3_alg».proof.Proof.Gen.Kernel.Frame
import proofs.«419143_j25039659336082_3_alg».proof.Proof.Gen.KernelIdeal
import proofs.«419143_j25039659336082_3_alg».proof.Proof.Gen.KernelIdeal.Skeleton
import proofs.«419143_j25039659336082_3_alg».proof.Proof.Gen.KernelIdeal.Launch
import proofs.«419143_j25039659336082_3_alg».proof.Proof.Gen.KernelIdeal.Points
import proofs.«419143_j25039659336082_3_alg».proof.Proof.Gen.KernelIdeal.Frame
import proofs.«419143_j25039659336082_3_alg».proof.Proof.Gen.ReferenceIdeal
import proofs.«419143_j25039659336082_3_alg».proof.Proof.Gen.ReferenceIdeal.Run
import proofs.«419143_j25039659336082_3_alg».proof.Proof.Gen.ReferenceIdeal.Read
import proofs.«419143_j25039659336082_3_alg».proof.Proof.Gen.Pre_finite_inputs
import proofs.«419143_j25039659336082_3_alg».proof.Proof.RowLaw
import proofs.«419143_j25039659336082_3_alg».proof.Proof.Finite
import proofs.«419143_j25039659336082_3_alg».proof.Proof.RefValue
import proofs.«419143_j25039659336082_3_alg».proof.Proof.Final
import Idealize.ShloMosaic.Adequacy
import Idealize.ShloMosaic.Init

noncomputable section

namespace Cert.Proof

open Idealize.ShloMosaic Idealize.SL.Sem Idealize.ShloMosaic.ValueIdx

/-- The word-level kernel runs and keeps its arguments: the generated frame. -/
theorem frame_p : Cert.frame_Kernel := fun m ρ _ => Cert.Kernel.Gen.frame m ρ

/-- So does its reading on the extended reals. -/
theorem frame_pi : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on real arguments both programs end with the same result: element
    `(b, h, n, d)` of the kernel's is `RowLaw.outK`, of the reference's `RowLaw.outR`, and on real queries, keys
    and scale the two are equal. -/
theorem algebraic : Cert.algebraic_KernelIdeal_ReferenceIdeal := by
  intro m ρ m' ρ' hpre hagree
  refine ⟨fun c => shapeCast Cert.KernelIdeal.S4x8x2048x64 (Cert.KernelIdeal.Final.G9 m c) Cert.KernelIdeal.Gen.shapeCasts_S32x2048x64_S4x8x2048x64,
    Cert.KernelIdeal.Final.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2]
  funext i
  obtain ⟨b, h, n, d, rfl⟩ : ∃ (b : Fin 4) (h : Fin 8) (n : Fin 2048) (d : Fin 64), i = ix4 b h n d := ⟨i 0, i 1, i 2, i 3, eq_ix4 i⟩
  obtain ⟨hQ, hK, -, hS⟩ := Cert.Finite.real_of_pre _ _ _ _ (hpre c)
  rw [Cert.RefValue.ref_apply]
  exact ((Cert.KernelIdeal.Final.result_apply m c b h n d).trans
    (Cert.RowLaw.outK_eq_outR _ _ _ _ hQ hK (hS ix0) b h n d)).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
